-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x400000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S50000 : Shape := ⟨1, ![50000]⟩
abbrev S50000x1 : Shape := ⟨2, ![50000, 1]⟩
abbrev S5000x1 : Shape := ⟨2, ![5000, 1]⟩

abbrev nBuf : Space → Nat
  | .hbm => 37
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S50000x128, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x128, .f32⟩
  | .hbm, ⟨21, _⟩ => ⟨S_, .f32⟩
  | .hbm, ⟨22, _⟩ => ⟨S50000x128, .f32⟩
  | .hbm, ⟨23, _⟩ => ⟨S400000x1, .i32⟩
  | .hbm, ⟨24, _⟩ => ⟨S50000x128, .f32⟩
  | .hbm, ⟨25, _⟩ => ⟨S_, .f32⟩
  | .hbm, ⟨26, _⟩ => ⟨S400000, .f32⟩
  | .hbm, ⟨27, _⟩ => ⟨S_, .f32⟩
  | .hbm, ⟨28, _⟩ => ⟨S50000, .f32⟩
  | .hbm, ⟨29, _⟩ => ⟨S400000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S128x128, .f32⟩
  | .hbm, ⟨36, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1x400000 : Shape := ⟨2, ![1, 400000]⟩
abbrev S400000 : Shape := ⟨1, ![400000]⟩
abbrev S400000x1 : Shape := ⟨2, ![400000, 1]⟩
abbrev S400000x128 : Shape := ⟨2, ![400000, 128]⟩
abbrev S50000 : Shape := ⟨1, ![50000]⟩
abbrev S50000x1 : Shape := ⟨2, ![50000, 1]⟩

abbrev nBuf : Space → Nat
  | .hbm => 49
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .f32⟩
  | .hbm, ⟨12, _⟩ => ⟨S50000x128, .f32⟩
  | .hbm, ⟨13, _⟩ => ⟨S50000x128, .f32⟩
  | .hbm, ⟨14, _⟩ => ⟨S1x400000, .i32⟩
  | .hbm, ⟨15, _⟩ => ⟨S400000, .i32⟩
  | .hbm, ⟨16, _⟩ => ⟨S1x400000, .i32⟩
  | .hbm, ⟨17, _⟩ => ⟨S400000, .i32⟩
  | .hbm, ⟨18, _⟩ => ⟨S_, .i32⟩
  | .hbm, ⟨19, _⟩ => ⟨S400000, .i32⟩
  | .hbm, ⟨20, _⟩ => ⟨S400000, .i1⟩
  | .hbm, ⟨21, _⟩ => ⟨S_, .i32⟩
  | .hbm, ⟨22, _⟩ => ⟨S400000, .i32⟩
  | .hbm, ⟨23, _⟩ => ⟨S400000, .i32⟩
  | .hbm, ⟨24, _⟩ => ⟨S400000, .i32⟩
  | .hbm, ⟨25, _⟩ => ⟨S400000x1, .i32⟩
  | .hbm, ⟨26, _⟩ => ⟨S400000x128, .f32⟩
  | .hbm, ⟨27, _⟩ => ⟨S_, .f32⟩
  | .hbm, ⟨28, _⟩ => ⟨S50000x128, .f32⟩
  | .hbm, ⟨29, _⟩ => ⟨S400000x1, .i32⟩
  | .hbm, ⟨30, _⟩ => ⟨S50000x128, .f32⟩
  | .hbm, ⟨31, _⟩ => ⟨S_, .f32⟩
  | .hbm, ⟨32, _⟩ => ⟨S400000, .f32⟩
  | .hbm, ⟨33, _⟩ => ⟨S_, .f32⟩
  | .hbm, ⟨34, _⟩ => ⟨S50000, .f32⟩
  | .hbm, ⟨35, _⟩ => ⟨S400000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf

class Facts : Prop extends Facts₀ where

variable [Facts]
-- ==== Proof.Payload.lean ====
/-
  The two kernel bodies' arithmetic, read at one element of the output block, at the ideal values.

  Both bodies multiply a row block by a 128×128 matrix on the MXU into a zero accumulator; over the extended reals
  that product at row `p`, column `c` is the plain sum over `k` of `l[p,k] · r[k,c]` (no rounding, no chunk order;
  the casts to bf16 are the identity). The first body adds the bias row and clamps at zero; the second first forms
  `agg[p,k] / deg[p] + h[p,k]` (the degree column broadcast along the row) and adds the bias row after the product.
-/
import proofs.«422605_j14972255994227_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The block product's operand indices -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A row block times the matrix, into the zero accumulator, at row `p` and column `c`: the sum over the contracted
    axis of the products. -/
theorem blockProduct_apply {φ₁ φ₂ : FTy} (l : FVec Ideal S5000x128 φ₁) (r : FVec Ideal S128x128 φ₂) (p : Fin 5000) (c : Fin 128) :
    matmul (F := Ideal) dot_S5000x128_S128x128_S5000x128_1_0_0_1_n_n none l r (constant S5000x128 .f32 0x00000000#32) (ix2 p c)
      = ∑ k : Fin 128, l (ix2 p k) * r (ix2 k c) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p c) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p c) ((contrEquiv1 dot_S5000x128_S128x128_S5000x128_1_0_0_1_n_n 128 rfl rfl).symm k) = ix2 k c := funext fun a => Fin.ext (by
    match a with
    | ⟨0, _⟩ => exact (rhs_contr _ _).trans hk
    | ⟨1, _⟩ => exact rhs_col _ _)
  rw [el, er]

/-! ## Layout pieces of the bodies -/

/-- The bias vector, cast to one row and broadcast over the block's rows, reads the bias at the column. -/
theorem biasRows_apply {α : Type} (b : S128.Idx → α) (p : Fin 5000) (c : Fin 128) :
    broadcastTo S5000x128 (shapeCast S1x128 b shapeCasts_S128_S1x128) broadcasts_S1x128_S5000x128 (ix2 p c) = b (ix1 c) :=
  (ValueIdx.broadcastTo_1b_ab_apply _ broadcasts_S1x128_S5000x128 p c).trans
    (ValueIdx.shapeCast_a_1a_apply b shapeCasts_S128_S1x128 (0 : Fin 1) c)

/-- The degree column broadcast along each row reads the row's one entry. -/
theorem degCols_apply {α : Type} (d : S5000x1.Idx → α) (p : Fin 5000) (k : Fin 128) :
    broadcastTo S5000x128 d broadcasts_S5000x1_S5000x128 (ix2 p k) = d (ix2 p (0 : Fin 1)) := by
  refine broadcastTo_apply d broadcasts_S5000x1_S5000x128 (ix2 p k) (ix2 p (0 : Fin 1)) fun ax => ?_
  match ax with
  | ⟨0, _⟩ =>
    show p.val = if (5000 : Nat) = 1 then 0 else p.val
    rw [if_neg (by decide)]
  | ⟨1, _⟩ =>
    show (0 : Nat) = if (1 : Nat) = 1 then 0 else k.val
    rw [if_pos rfl]

/-! ## The two payloads at an element -/

/-- First body: `max (Σₖ x[p,k]·w[k,c] + b[c]) 0`. -/
theorem linearRelu_apply (x : Vec Ideal S5000x128 .f32) (w : Vec Ideal S128x128 .f32) (b : Vec Ideal S128 .f32) (p : Fin 5000) (c : Fin 128) :
    k0_pay1 (F := Ideal) x w b (ix2 p c)
      = max ((∑ k : Fin 128, x (ix2 p k) * w (ix2 k c)) + b (ix1 c)) (Ideal.ofBits .f32 0x00000000#32) := by
  unfold k0_pay1
  rw [maximumf_apply, addf_apply, blockProduct_apply, biasRows_apply]
  simp only [truncf_apply, shapeCast_self]
  rfl

/-- Second body: `Σₖ (agg[p,k] / deg[p] + h[p,k])·w[k,c] + b[c]`. -/
theorem normResidualFc2_apply (a : Vec Ideal S5000x128 .f32) (d : Vec Ideal S5000x1 .f32) (h : Vec Ideal S5000x128 .f32)
    (w : Vec Ideal S128x128 .f32) (b : Vec Ideal S128 .f32) (p : Fin 5000) (c : Fin 128) :
    k1_pay1 (F := Ideal) a d h w b (ix2 p c)
      = (∑ k : Fin 128, (Ideal.div (a (ix2 p k)) (d (ix2 p (0 : Fin 1))) + h (ix2 p k)) * w (ix2 k c)) + b (ix1 c) := by
  unfold k1_pay1
  rw [addf_apply, blockProduct_apply, biasRows_apply]
  simp only [truncf_apply, addf_apply, divf_apply, shapeCast_self, degCols_apply]

end Cert.KernelIdeal.Hand

end
-- ==== Proof.Spec.lean ====
/-
  What the two programs compute, element by element, over the extended reals.

  `hidden x wt b` is the first layer: at node `r`, feature `c`, `max (Σₖ x[r,k] · wt[k,c] + b[c]) 0`, with `wt` the
  transposed weight. `output agg deg h wt b` is the last layer on the mean-aggregated messages plus the residual:
  `Σₖ (agg[r,k] / deg[r] + h[r,k]) · wt[k,c] + b[c]`, the degree held as a one-column array. The aggregation
  between the two layers (a gather along the edges' sources and a scatter-add along their targets) is the same chain of
  host operations in both programs and is never opened.
-/
import Idealize.ShloMosaic.PureOps.Ideal
import Idealize.ShloMosaic.Lib.ValueIdx

noncomputable section

namespace Cert.Spec

open Idealize.ShloMosaic Idealize.ShloMosaic.ValueIdx

/-- Nodes × features, the square weight, the bias, the degree column. -/
abbrev Nodes : Shape := ⟨2, ![50000, 128]⟩
abbrev Weight : Shape := ⟨2, ![128, 128]⟩
abbrev Bias : Shape := ⟨1, ![128]⟩
abbrev DegCol : Shape := ⟨2, ![50000, 1]⟩

/-- The first layer at an explicit node and feature. -/
def hiddenAt (x : Nodes.Idx → EReal) (wt : Weight.Idx → EReal) (b : Bias.Idx → EReal) (r : Fin 50000) (c : Fin 128) : EReal :=
  max ((∑ k : Fin 128, x (ix2 r k) * wt (ix2 k c)) + b (ix1 c)) (Ideal.ofBits .f32 0x00000000#32)

/-- The first layer as an array. -/
def hidden (x : Nodes.Idx → EReal) (wt : Weight.Idx → EReal) (b : Bias.Idx → EReal) : Nodes.Idx → EReal :=
  fun i => hiddenAt x wt b ⟨(i 0).val, (i 0).isLt⟩ ⟨(i 1).val, (i 1).isLt⟩

/-- The last layer at an explicit node and feature. -/
def outputAt (agg : Nodes.Idx → EReal) (deg : DegCol.Idx → EReal) (h : Nodes.Idx → EReal) (wt : Weight.Idx → EReal)
    (b : Bias.Idx → EReal) (r : Fin 50000) (c : Fin 128) : EReal :=
  (∑ k : Fin 128, (Ideal.div (agg (ix2 r k)) (deg (ix2 r (0 : Fin 1))) + h (ix2 r k)) * wt (ix2 k c)) + b (ix1 c)

/-- The last layer as an array. -/
def output (agg : Nodes.Idx → EReal) (deg : DegCol.Idx → EReal) (h : Nodes.Idx → EReal) (wt : Weight.Idx → EReal)
    (b : Bias.Idx → EReal) : Nodes.Idx → EReal :=
  fun i => outputAt agg deg h wt b ⟨(i 0).val, (i 0).isLt⟩ ⟨(i 1).val, (i 1).isLt⟩

theorem hidden_ix2 (x : Nodes.Idx → EReal) (wt : Weight.Idx → EReal) (b : Bias.Idx → EReal) (r : Fin 50000) (c : Fin 128) :
    hidden x wt b (ix2 r c) = hiddenAt x wt b r c := rfl

theorem output_ix2 (agg : Nodes.Idx → EReal) (deg : DegCol.Idx → EReal) (h : Nodes.Idx → EReal) (wt : Weight.Idx → EReal)
    (b : Bias.Idx → EReal) (r : Fin 50000) (c : Fin 128) :
    output agg deg h wt b (ix2 r c) = outputAt agg deg h wt b r c := rfl

end Cert.Spec

end
-- ==== Proof.Region0.lean ====
/-
  The first pallas_call's result array, whatever the buffers hold when the call is entered.

  Point `t` of the ten-point grid reads rows `5000·t … 5000·t + 4999` of the node features, the whole transposed
  weight and the whole bias, and writes back the same rows of the hidden layer: each element of a written block is
  `Spec.hidden` of the three arrays at that element's place in the whole array. The ten blocks tile the 50000 rows, so
  after the call the result array is `Spec.hidden` of the three arrays.
-/
import proofs.«422605_j14972255994227_3_alg».proof.Proof.Gen.KernelIdeal.Frame
import proofs.«422605_j14972255994227_3_alg».proof.Proof.Payload
import proofs.«422605_j14972255994227_3_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff2 : (![0, 0] : Fin 2 → Nat) = fun _ => 0 := funext fun a => by fin_cases a <;> rfl
theorem zeroOff1 : (![0] : Fin 1 → Nat) = fun _ => 0 := funext fun a => by fin_cases a <;> rfl

/-- Where each window of the first call sits at point `t`: the row-blocked ones at block `t`, the weight and the bias
    at their one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The feature window's block at point `t`, at row `p` and column `k`, is the array at row `5000·t + p`. -/
theorem featBlock_apply (c : Dev nD) (t : Fin cfg0.N) (p : Fin 5000) (k : Fin 128) (i : S50000x128.Idx)
    (hi0 : (i 0).val = t.val * 5000 + p.val) (hi1 : (i 1).val = k.val) :
    (iblk0 V c 0 t : Vec Ideal S5000x128 .f32) (ix2 p k) = (V c main_arg0 : S50000x128.Idx → Elt Ideal .f32) i := by
  obtain ⟨e0, e1, -⟩ := blockIndex0 t
  unfold iblk0
  rw [View.read_apply]
  show V c main_arg0 _ = V c main_arg0 _
  congr 1
  funext a
  apply Fin.ext
  match a with
  | ⟨0, _⟩ => show win0_0.index t 0 * 5000 + 1 * p.val = (i 0).val; rw [e0, hi0]; omega
  | ⟨1, _⟩ => show win0_0.index t 1 * 128 + 1 * k.val = (i 1).val; rw [e1, hi1]; omega

/-- The weight window's one block is the whole transposed weight. -/
theorem weightBlock0_eq (c : Dev nD) (t : Fin cfg0.N) :
    (iblk0 V c 1 t : Vec Ideal S128x128 .f32) = (V c main_v0 : S128x128.Idx → Elt Ideal .f32) := by
  obtain ⟨-, -, e0, e1, -⟩ := blockIndex0 t
  funext y
  unfold iblk0
  rw [View.read_apply]
  show V c main_v0 _ = V c main_v0 _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The bias window's one block is the whole bias. -/
theorem biasBlock0_eq (c : Dev nD) (t : Fin cfg0.N) :
    (iblk0 V c 2 t : Vec Ideal S128 .f32) = (V c main_arg3 : S128.Idx → Elt Ideal .f32) := by
  obtain ⟨-, -, -, -, e0, -⟩ := blockIndex0 t
  funext y
  unfold iblk0
  rw [View.read_apply]
  show V c main_arg3 _ = V c main_arg3 _
  congr 1
  funext a
  apply Fin.ext
  match a with
  | ⟨0, _⟩ => show win0_2.index t 0 * 128 + 1 * (y 0).val = (y 0).val; rw [e0]; omega

/-- One element of a written block, over plain arrays: if the loaded feature block is rows `5000·n …` of `X`, the
    body's value at row `p`, column `q` is the hidden layer at row `5000·n + p`, column `q`. -/
theorem hiddenElement (X : S50000x128.Idx → Elt Ideal .f32) (x : Vec Ideal S5000x128 .f32) (w : Vec Ideal S128x128 .f32)
    (b : Vec Ideal S128 .f32) (n : Nat)
    (hx : ∀ (p : Fin 5000) (k : Fin 128) (i : S50000x128.Idx), (i 0).val = n * 5000 + p.val → (i 1).val = k.val → x (ix2 p k) = X i)
    (p : Fin 5000) (q : Fin 128) (i : S50000x128.Idx) (hi0 : (i 0).val = n * 5000 + p.val) (hi1 : (i 1).val = q.val) :
    k0_pay1 (F := Ideal) x w b (ix2 p q) = Spec.hidden X w b i := by
  rw [linearRelu_apply]
  unfold Spec.hidden Spec.hiddenAt
  have hq : (⟨(i 1).val, (i 1).isLt⟩ : Fin 128) = q := Fin.ext hi1
  rw [hq]
  refine congrArg (fun s => max (s + b (ix1 q)) (Ideal.ofBits .f32 0x00000000#32)) (Finset.sum_congr rfl fun k _ => ?_)
  rw [hx p k (ix2 ⟨(i 0).val, (i 0).isLt⟩ k) hi0 rfl]

/-- What point `t` writes back is its block of the hidden layer of the arrays as the call finds them. -/
theorem writeBack0_eq (c : Dev nD) (t : Fin cfg0.N) :
    (dat0 V c).flushed 3 t
      = ((cfg0.win 3).blk t).view.read (Elt Ideal) (Spec.hidden (V c main_arg0) (V c main_v0) (V c main_arg3)) := by
  show (cfg0.win 3).cut (grid0.coords t) ((dat0 V c).after 3 t) = _
  rw [after0_3]
  unfold out0_3
  rw [View.canon_unit_zero zeroOff2]
  simp only [View.ld_unit_zero (S := S5000x128) zeroOff2, View.ld_unit_zero (S := S128x128) zeroOff2, View.ld_unit_zero (S := S128) zeroOff1]
  rw [weightBlock0_eq, biasBlock0_eq]
  obtain ⟨-, -, -, -, -, e0, e1⟩ := blockIndex0 t
  funext y
  show k0_pay1 (F := Ideal) (iblk0 V c 0 t) (V c main_v0) (V c main_arg3) y
    = Spec.hidden (V c main_arg0) (V c main_v0) (V c main_arg3) (((cfg0.win 3).blk t).view.emb y)
  obtain ⟨p, q, rfl⟩ : ∃ (p : Fin 5000) (q : Fin 128), y = ix2 p q := ⟨y 0, y 1, eq_ix2 y⟩
  refine hiddenElement (V c main_arg0) (iblk0 V c 0 t) (V c main_v0) (V c main_arg3) t.val
    (fun p k i h0 h1 => featBlock_apply V c t p k i h0 h1) p q _ ?_ ?_
  · show win0_3.index t 0 * 5000 + 1 * p.val = t.val * 5000 + p.val
    rw [e0]; omega
  · show win0_3.index t 1 * 128 + 1 * q.val = q.val
    rw [e1]; omega

/-- An index of the result array is in point `t`'s block iff each coordinate is in the block's range. -/
theorem mem_hiddenBlock (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Every row of the result array lies in the block of the point `row / 5000`. -/
theorem hiddenBlocks_cover (i : S50000x128.Idx) :
    ∃ t : Fin cfg0.N, (cfg0.win 3).flush t = true ∧ i ∈ ((cfg0.win 3).blk t).view.set := by
  have h0 : (i 0).val < 50000 := idx2_lt0 i
  have h1 : (i 1).val < 128 := idx2_lt1 i
  have hN : cfg0.N = 10 := N_0
  have ht : (i 0).val / 5000 < cfg0.N := by rw [hN]; omega
  obtain ⟨-, -, -, -, -, e0, e1⟩ := blockIndex0 ⟨(i 0).val / 5000, ht⟩
  refine ⟨⟨(i 0).val / 5000, ht⟩, flush0_3 _, ?_⟩
  rw [mem_hiddenBlock]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ 1 * 128 ≤ (i 1).val ∧ (i 1).val < win0_3.index ⟨(i 0).val / 5000, ht⟩ 1 * 128 + 128
    rw [e1]; omega

/-- THE FIRST CALL'S RESULT: the hidden layer of the features, the transposed weight and the bias as the call finds them. -/
theorem hiddenArray (c : Dev nD) :
    (dat0 V c).arrAt 3 cfg0.N = Spec.hidden (V c main_arg0) (V c main_v0) (V c main_arg3) :=
  (dat0 V c).arrAt_eq_of_cover 3 (Spec.hidden (V c main_arg0) (V c main_v0) (V c main_arg3))
    (fun t _ => writeBack0_eq V c t) hiddenBlocks_cover

end Cert.KernelIdeal.Hand

end
-- ==== Proof.Region1.lean ====
/-
  The second pallas_call's result array, whatever the buffers hold when the call is entered.

  Point `t` of the ten-point grid reads rows `5000·t … 5000·t + 4999` of the aggregated messages, of the degree
  column and of the hidden layer, the whole transposed weight and the whole bias, and writes back the same rows of the
  output: each element of a written block is `Spec.output` of the five arrays at that element's place in the whole
  array. The ten blocks tile the 50000 rows, so after the call the result array is `Spec.output` of the five arrays.
-/
import proofs.«422605_j14972255994227_3_alg».proof.Proof.Gen.KernelIdeal.Frame
import proofs.«422605_j14972255994227_3_alg».proof.Proof.Payload
import proofs.«422605_j14972255994227_3_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffset2 : (![0, 0] : Fin 2 → Nat) = fun _ => 0 := funext fun a => by fin_cases a <;> rfl
theorem zeroOffset1 : (![0] : Fin 1 → Nat) = fun _ => 0 := funext fun a => by fin_cases a <;> rfl

/-- Where each window of the second call sits at point `t`: the four row-blocked ones at block `t`, the weight and the
    bias at their one block. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The aggregate window's block at point `t`, at row `p` and column `k`, is the array at row `5000·t + p`. -/
theorem aggBlock_apply (c : Dev nD) (t : Fin cfg1.N) (p : Fin 5000) (k : Fin 128) (i : S50000x128.Idx)
    (hi0 : (i 0).val = t.val * 5000 + p.val) (hi1 : (i 1).val = k.val) :
    (iblk1 V c 0 t : Vec Ideal S5000x128 .f32) (ix2 p k) = (V c main_v15 : S50000x128.Idx → Elt Ideal .f32) i := by
  obtain ⟨e0, e1, -⟩ := blockIndex1 t
  unfold iblk1
  rw [View.read_apply]
  show V c main_v15 _ = V c main_v15 _
  congr 1
  funext a
  apply Fin.ext
  match a with
  | ⟨0, _⟩ => show win1_0.index t 0 * 5000 + 1 * p.val = (i 0).val; rw [e0, hi0]; omega
  | ⟨1, _⟩ => show win1_0.index t 1 * 128 + 1 * k.val = (i 1).val; rw [e1, hi1]; omega

/-- The degree window's block at point `t`, at row `p`, is the column at row `5000·t + p`. -/
theorem degBlock_apply (c : Dev nD) (t : Fin cfg1.N) (p : Fin 5000) (i : S50000x1.Idx)
    (hi0 : (i 0).val = t.val * 5000 + p.val) :
    (iblk1 V c 1 t : Vec Ideal S5000x1 .f32) (ix2 p (0 : Fin 1)) = (V c main_v22 : S50000x1.Idx → Elt Ideal .f32) i := by
  obtain ⟨-, -, e0, e1, -⟩ := blockIndex1 t
  have hi1 : (i 1).val = 0 := by have := idx2_lt1 i; omega
  unfold iblk1
  rw [View.read_apply]
  show V c main_v22 _ = V c main_v22 _
  congr 1
  funext a
  apply Fin.ext
  match a with
  | ⟨0, _⟩ => show win1_1.index t 0 * 5000 + 1 * p.val = (i 0).val; rw [e0, hi0]; omega
  | ⟨1, _⟩ => show win1_1.index t 1 * 1 + 1 * 0 = (i 1).val; rw [e1, hi1]

/-- The hidden-layer window's block at point `t`, at row `p` and column `k`, is the array at row `5000·t + p`. -/
theorem hidBlock_apply (c : Dev nD) (t : Fin cfg1.N) (p : Fin 5000) (k : Fin 128) (i : S50000x128.Idx)
    (hi0 : (i 0).val = t.val * 5000 + p.val) (hi1 : (i 1).val = k.val) :
    (iblk1 V c 2 t : Vec Ideal S5000x128 .f32) (ix2 p k) = (V c main_v1 : S50000x128.Idx → Elt Ideal .f32) i := by
  obtain ⟨-, -, -, -, e0, e1, -⟩ := blockIndex1 t
  unfold iblk1
  rw [View.read_apply]
  show V c main_v1 _ = V c main_v1 _
  congr 1
  funext a
  apply Fin.ext
  match a with
  | ⟨0, _⟩ => show win1_2.index t 0 * 5000 + 1 * p.val = (i 0).val; rw [e0, hi0]; omega
  | ⟨1, _⟩ => show win1_2.index t 1 * 128 + 1 * k.val = (i 1).val; rw [e1, hi1]; omega

/-- The weight window's one block is the whole transposed weight. -/
theorem weightBlock1_eq (c : Dev nD) (t : Fin cfg1.N) :
    (iblk1 V c 3 t : Vec Ideal S128x128 .f32) = (V c main_v23 : S128x128.Idx → Elt Ideal .f32) := by
  obtain ⟨-, -, -, -, -, -, e0, e1, -⟩ := blockIndex1 t
  funext y
  unfold iblk1
  rw [View.read_apply]
  show V c main_v23 _ = V c main_v23 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The bias window's one block is the whole bias. -/
theorem biasBlock1_eq (c : Dev nD) (t : Fin cfg1.N) :
    (iblk1 V c 4 t : Vec Ideal S128 .f32) = (V c main_arg5 : S128.Idx → Elt Ideal .f32) := by
  obtain ⟨-, -, -, -, -, -, -, -, e0, -⟩ := blockIndex1 t
  funext y
  unfold iblk1
  rw [View.read_apply]
  show V c main_arg5 _ = V c main_arg5 _
  congr 1
  funext a
  apply Fin.ext
  match a with
  | ⟨0, _⟩ => show win1_4.index t 0 * 128 + 1 * (y 0).val = (y 0).val; rw [e0]; omega

/-- One element of a written block, over plain arrays: if the three loaded row blocks are rows `5000·n …` of `A`, `D`
    and `H`, the body's value at row `p`, column `q` is the output layer at row `5000·n + p`, column `q`. -/
theorem outputElement (A : S50000x128.Idx → Elt Ideal .f32) (D : S50000x1.Idx → Elt Ideal .f32) (H : S50000x128.Idx → Elt Ideal .f32)
    (a : Vec Ideal S5000x128 .f32) (d : Vec Ideal S5000x1 .f32) (h : Vec Ideal S5000x128 .f32)
    (w : Vec Ideal S128x128 .f32) (b : Vec Ideal S128 .f32) (n : Nat)
    (ha : ∀ (p : Fin 5000) (k : Fin 128) (i : S50000x128.Idx), (i 0).val = n * 5000 + p.val → (i 1).val = k.val → a (ix2 p k) = A i)
    (hd : ∀ (p : Fin 5000) (i : S50000x1.Idx), (i 0).val = n * 5000 + p.val → d (ix2 p (0 : Fin 1)) = D i)
    (hh : ∀ (p : Fin 5000) (k : Fin 128) (i : S50000x128.Idx), (i 0).val = n * 5000 + p.val → (i 1).val = k.val → h (ix2 p k) = H i)
    (p : Fin 5000) (q : Fin 128) (i : S50000x128.Idx) (hi0 : (i 0).val = n * 5000 + p.val) (hi1 : (i 1).val = q.val) :
    k1_pay1 (F := Ideal) a d h w b (ix2 p q) = Spec.output A D H w b i := by
  rw [normResidualFc2_apply]
  unfold Spec.output Spec.outputAt
  have hq : (⟨(i 1).val, (i 1).isLt⟩ : Fin 128) = q := Fin.ext hi1
  rw [hq]
  refine congrArg (fun s => s + b (ix1 q)) (Finset.sum_congr rfl fun k _ => ?_)
  rw [ha p k (ix2 ⟨(i 0).val, (i 0).isLt⟩ k) hi0 rfl, hh p k (ix2 ⟨(i 0).val, (i 0).isLt⟩ k) hi0 rfl,
    hd p (ix2 ⟨(i 0).val, (i 0).isLt⟩ (0 : Fin 1)) hi0]

/-- What point `t` writes back is its block of the output layer of the arrays as the call finds them. -/
theorem writeBack1_eq (c : Dev nD) (t : Fin cfg1.N) :
    (dat1 V c).flushed 5 t
      = ((cfg1.win 5).blk t).view.read (Elt Ideal)
          (Spec.output (V c main_v15) (V c main_v22) (V c main_v1) (V c main_v23) (V c main_arg5)) := by
  show (cfg1.win 5).cut (grid1.coords t) ((dat1 V c).after 5 t) = _
  rw [after1_5]
  unfold out1_5
  rw [View.canon_unit_zero zeroOffset2]
  simp only [View.ld_unit_zero (S := S5000x128) zeroOffset2, View.ld_unit_zero (S := S5000x1) zeroOffset2,
    View.ld_unit_zero (S := S128x128) zeroOffset2, View.ld_unit_zero (S := S128) zeroOffset1]
  rw [weightBlock1_eq, biasBlock1_eq]
  obtain ⟨-, -, -, -, -, -, -, -, -, e0, e1⟩ := blockIndex1 t
  funext y
  show k1_pay1 (F := Ideal) (iblk1 V c 0 t) (iblk1 V c 1 t) (iblk1 V c 2 t) (V c main_v23) (V c main_arg5) y
    = Spec.output (V c main_v15) (V c main_v22) (V c main_v1) (V c main_v23) (V c main_arg5) (((cfg1.win 5).blk t).view.emb y)
  obtain ⟨p, q, rfl⟩ : ∃ (p : Fin 5000) (q : Fin 128), y = ix2 p q := ⟨y 0, y 1, eq_ix2 y⟩
  refine outputElement (V c main_v15) (V c main_v22) (V c main_v1) (iblk1 V c 0 t) (iblk1 V c 1 t) (iblk1 V c 2 t)
    (V c main_v23) (V c main_arg5) t.val
    (fun p k i h0 h1 => aggBlock_apply V c t p k i h0 h1) (fun p i h0 => degBlock_apply V c t p i h0)
    (fun p k i h0 h1 => hidBlock_apply V c t p k i h0 h1) p q _ ?_ ?_
  · show win1_5.index t 0 * 5000 + 1 * p.val = t.val * 5000 + p.val
    rw [e0]; omega
  · show win1_5.index t 1 * 128 + 1 * q.val = q.val
    rw [e1]; omega

/-- An index of the result array is in point `t`'s block iff each coordinate is in the block's range. -/
theorem mem_outputBlock (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v24).slice (win1_5.rect t)).set ↔ _
  rw [View.set_slice_whole, Rect.mem_set_unit]
  exact Iff.rfl

/-- Every row of the result array lies in the block of the point `row / 5000`. -/
theorem outputBlocks_cover (i : S50000x128.Idx) :
    ∃ t : Fin cfg1.N, (cfg1.win 5).flush t = true ∧ i ∈ ((cfg1.win 5).blk t).view.set := by
  have h0 : (i 0).val < 50000 := idx2_lt0 i
  have h1 : (i 1).val < 128 := idx2_lt1 i
  have hN : cfg1.N = 10 := N_1
  have ht : (i 0).val / 5000 < cfg1.N := by rw [hN]; omega
  obtain ⟨-, -, -, -, -, -, -, -, -, e0, e1⟩ := blockIndex1 ⟨(i 0).val / 5000, ht⟩
  refine ⟨⟨(i 0).val / 5000, ht⟩, flush1_5 _, ?_⟩
  rw [mem_outputBlock]
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ 1 * 128 ≤ (i 1).val ∧ (i 1).val < win1_5.index ⟨(i 0).val / 5000, ht⟩ 1 * 128 + 128
    rw [e1]; omega

/-- THE SECOND CALL'S RESULT: the output layer of the aggregate, the degree column, the hidden layer, the transposed
    weight and the bias as the call finds them. -/
theorem outputArray (c : Dev nD) :
    (dat1 V c).arrAt 5 cfg1.N
      = Spec.output (V c main_v15) (V c main_v22) (V c main_v1) (V c main_v23) (V c main_arg5) :=
  (dat1 V c).arrAt_eq_of_cover 5 (Spec.output (V c main_v15) (V c main_v22) (V c main_v1) (V c main_v23) (V c main_arg5))
    (fun t _ => writeBack1_eq V c t) outputBlocks_cover

end Cert.KernelIdeal.Hand

end
-- ==== Proof.KernelValue.lean ====
/-
  The kernel program's result buffer as one function of the six argument arrays.

  The first call is entered after one host operation (the first weight transposed) and leaves the hidden layer
  `h = Spec.hidden x W1ᵀ b1` in its result array. The host stretch between the calls gathers `h` along the edges'
  sources, scatter-adds the messages along their targets (`aggregate`), counts each node's incoming edges, clamps the
  count at one and lays it out as a column (`degree`), and transposes the second weight. The second call then leaves
  `Spec.output (aggregate h edges) (degree edges) h W2ᵀ b2` in the program's result buffer. The gather and the two
  scatter-adds are the reference's own operations on the same operands: they are named here once and never opened.
-/
import proofs.«422605_j14972255994227_3_alg».proof.Proof.Gen.KernelIdeal.Frame
import proofs.«422605_j14972255994227_3_alg».proof.Proof.Gen.ReferenceIdeal.Read
import proofs.«422605_j14972255994227_3_alg».proof.Proof.Region0
import proofs.«422605_j14972255994227_3_alg».proof.Proof.Region1
import Idealize.ShloMosaic.Lib.StableHlo.Run

set_option maxRecDepth 16384

noncomputable section

namespace Cert.Bridge

open Idealize.ShloMosaic Idealize.ShloMosaic.TcCoe Idealize.SL.Sem Idealize.ShloMosaic.ValueIdx
open Cert.ReferenceIdeal Cert.ReferenceIdeal.Gen Cert.ReferenceIdeal.Read

/-- The messages gathered along the edges' sources and summed into their targets, from a hidden layer `h`: the
    reference's gather and scatter-add, `h` in the place of its own hidden layer. -/
def aggregate (h : (⟨S50000x128, .f32⟩ : BufTy).Contents (Elt Ideal)) (ei : (⟨S2x400000, .i32⟩ : BufTy).Contents (Elt Ideal)) :
    (⟨S50000x128, .f32⟩ : BufTy).Contents (Elt Ideal) :=
  Host.scatterAdd (F := Ideal) (φ := .f32) scatter_S50000x128_S400000x1_S400000x128_1_0_0_1 (val_main_v17 (F := Ideal)) (val_main_v18 (F := Ideal) ei)
    (Host.gather gather_S50000x128_S400000x1_S400000x128_1_0_n_n_0_1_1128 h (val_main_v15 (F := Ideal) ei))

/-- The reference's aggregate is `aggregate` of its own hidden layer. -/
theorem val_main_v19_eq (x0 : (⟨S50000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal)) :
    val_main_v19 (F := Ideal) x0 x1 x2 x3 = aggregate (val_main_v5 (F := Ideal) x0 x2 x3) x1 := rfl

/-- A vector laid out as a column by a reshape is the same column as by a broadcast along the new unit axis. -/
theorem column_reshape_eq_broadcast {α : Type} (y : S50000.Idx → α) (h : S50000.ShapeCasts S50000x1) :
    shapeCast S50000x1 y h = broadcastInDim S50000x1 ![0] bcast_S50000_S50000x1_0 y := by
  funext i
  have hi1 : (i 1).val = 0 := by have := idx2_lt1 i; omega
  refine (shapeCast_apply y h i (ix1 ⟨(i 0).val, (i 0).isLt⟩) ?_).trans
    (broadcastInDim_apply _ bcast_S50000_S50000x1_0 y i (ix1 ⟨(i 0).val, (i 0).isLt⟩) (fun a => match a with
      | ⟨0, _⟩ => by show (i 0).val = if (50000 : Nat) = 1 then 0 else (i 0).val; rw [if_neg (by decide)])).symm
  rw [Shape.rowMajor_val_two, Shape.rowMajor_val_one]
  show (i 0).val = (i 0).val * 1 + (i 1).val
  rw [hi1]; omega

end Cert.Bridge

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The first call's entry contents -/

theorem entry0_features (c : Dev nD) : V1 m ρ c main_arg0 = m ((c : Thread nD τ).loc main_arg0) := by
  show StableHlo.after hostOps0 (W0 m ρ c) (Proc.devRef .tc main_arg0) = _
  after_results

theorem entry0_weight (c : Dev nD) :
    V1 m ρ c main_v0 = Cert.ReferenceIdeal.Read.val_main_v0 (F := Ideal) (m ((c : Thread nD τ).loc main_arg2)) := by
  show StableHlo.after hostOps0 (W0 m ρ c) (Proc.devRef .tc main_v0) = _
  after_results; rfl

theorem entry0_bias (c : Dev nD) : V1 m ρ c main_arg3 = m ((c : Thread nD τ).loc main_arg3) := by
  show StableHlo.after hostOps0 (W0 m ρ c) (Proc.devRef .tc main_arg3) = _
  after_results

/-- The hidden layer the first call leaves, as a function of the arguments. -/
abbrev hiddenOf (c : Dev nD) : S50000x128.Idx → Elt Ideal .f32 :=
  Spec.hidden (m ((c : Thread nD τ).loc main_arg0)) (Cert.ReferenceIdeal.Read.val_main_v0 (F := Ideal) (m ((c : Thread nD τ).loc main_arg2)))
    (m ((c : Thread nD τ).loc main_arg3))

/-- After the first call its result array holds the hidden layer. -/
theorem exit0_hidden (c : Dev nD) : W2 m ρ c (Proc.devRef .tc main_v1) = hiddenOf m c := by
  refine (W2_arr m ρ c 3).trans ?_
  rw [hiddenArray (V1 m ρ) c, entry0_features, entry0_weight, entry0_bias]

/-! ## What the first call leaves untouched -/

theorem exit0_edges (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results

theorem exit0_weight2 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results

theorem exit0_bias2 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

/-! ## The second call's entry contents: the host stretch between the calls, read back -/

theorem entry1_aggregate (c : Dev nD) :
    V3 m ρ c main_v15 = Cert.Bridge.aggregate (W2 m ρ c (Proc.devRef .tc main_v1)) (W2 m ρ c (Proc.devRef .tc main_arg1)) := by
  show StableHlo.after hostOps1 (W2 m ρ c) (Proc.devRef .tc main_v15) = _
  after_results; rfl

theorem entry1_degree (c : Dev nD) :
    V3 m ρ c main_v22 = shapeCast S50000x1 (Cert.ReferenceIdeal.Read.val_main_v25 (F := Ideal) (W2 m ρ c (Proc.devRef .tc main_arg1))) shapeCasts_S50000_S50000x1 := by
  show StableHlo.after hostOps1 (W2 m ρ c) (Proc.devRef .tc main_v22) = _
  after_results; rfl

theorem entry1_hidden (c : Dev nD) : V3 m ρ c main_v1 = W2 m ρ c (Proc.devRef .tc main_v1) := by
  show StableHlo.after hostOps1 (W2 m ρ c) (Proc.devRef .tc main_v1) = _
  after_results

theorem entry1_weight (c : Dev nD) :
    V3 m ρ c main_v23 = Cert.ReferenceIdeal.Read.val_main_v30 (F := Ideal) (W2 m ρ c (Proc.devRef .tc main_arg4)) := by
  show StableHlo.after hostOps1 (W2 m ρ c) (Proc.devRef .tc main_v23) = _
  after_results; rfl

theorem entry1_bias (c : Dev nD) : V3 m ρ c main_arg5 = W2 m ρ c (Proc.devRef .tc main_arg5) := by
  show StableHlo.after hostOps1 (W2 m ρ c) (Proc.devRef .tc main_arg5) = _
  after_results

/-! ## The result -/

/-- The program's result as a function of the six arguments: the output layer over the aggregate of the hidden layer. -/
abbrev resultOf (c : Dev nD) : S50000x128.Idx → Elt Ideal .f32 :=
  Spec.output (Cert.Bridge.aggregate (hiddenOf m c) (m ((c : Thread nD τ).loc main_arg1)))
    (Cert.ReferenceIdeal.Read.val_main_v26 (F := Ideal) (m ((c : Thread nD τ).loc main_arg1))) (hiddenOf m c)
    (Cert.ReferenceIdeal.Read.val_main_v30 (F := Ideal) (m ((c : Thread nD τ).loc main_arg4))) (m ((c : Thread nD τ).loc main_arg5))

/-- After the second call the result buffer holds `resultOf`. -/
theorem exit1_result (c : Dev nD) : W4 m ρ c (Proc.devRef .tc main_v24) = resultOf m c := by
  refine (W4_arr m ρ c 5).trans ?_
  rw [outputArray (V3 m ρ) c, entry1_aggregate, entry1_degree, entry1_hidden, entry1_weight, entry1_bias,
    exit0_hidden, exit0_edges, exit0_weight2, exit0_bias2, Cert.Bridge.column_reshape_eq_broadcast]
  rfl

end Cert.KernelIdeal.Hand

end
-- ==== Proof.RefValue.lean ====
/-
  The reference program's stages as the same element-by-element functions.

  Its hidden layer `relu (x · W1ᵀ + b1)` is `Spec.hidden` of the features, the transposed weight and the bias: the host's
  `dot_general` at an element is the sum over the contracted axis, the bias is broadcast along the rows, the clamp's zero
  is a broadcast constant. Its result `(agg / deg + h) · W2ᵀ + b2` is `Spec.output` of its aggregate, its degree column,
  its hidden layer, the transposed weight and the bias: the degree column is broadcast along each row before the quotient.
-/
import proofs.«422605_j14972255994227_3_alg».proof.Proof.Gen.ReferenceIdeal.Read
import proofs.«422605_j14972255994227_3_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The reference's hidden layer is `Spec.hidden` of the features, the transposed first weight and the first bias. -/
theorem hidden_eq (x0 : (⟨S50000x128, .f32⟩ : BufTy).Contents (Elt Ideal)) (x2 : (⟨S128x128, .f32⟩ : BufTy).Contents (Elt Ideal))
    (x3 : (⟨S128, .f32⟩ : BufTy).Contents (Elt Ideal)) :
    val_main_v5 (F := Ideal) x0 x2 x3 = Spec.hidden x0 (val_main_v0 (F := Ideal) x2) x3 := by
  funext i
  rw [val_main_v5_apply, val_main_v4_apply, val_main_v1_apply, val_main_v3_apply, val_main_v2_apply,
    val_main_call0_v0_apply, val_main_call0_cst_apply]
  unfold Spec.hidden Spec.hiddenAt
  have el : ∀ k : Fin 128, lidx_main_v1 i k = ix2 (⟨(i 0).val, (i 0).isLt⟩ : Fin 50000) k := fun k =>
    funext fun a => by match a with | ⟨0, _⟩ => rfl | ⟨1, _⟩ => rfl
  have er : ∀ k : Fin 128, ridx_main_v1 i k = ix2 k (⟨(i 1).val, (i 1).isLt⟩ : Fin 128) := fun k =>
    funext fun a => by match a with | ⟨0, _⟩ => rfl | ⟨1, _⟩ => rfl
  have eb : idx_main_v2 (idx_main_v3 i) = ix1 (⟨(i 1).val, (i 1).isLt⟩ : Fin 128) :=
    funext fun a => by match a with | ⟨0, _⟩ => rfl
  simp only [el, er, eb]
  rfl

/-- The reference's result is `Spec.output` of its aggregate, its degree column, its hidden layer, the transposed
    second weight and the second bias. -/
theorem output_eq (x0 : (⟨S50000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v34 (F := Ideal) x0 x1 x2 x3 x4 x5
      = Spec.output (val_main_v19 (F := Ideal) x0 x1 x2 x3) (val_main_v26 (F := Ideal) x1) (val_main_v5 (F := Ideal) x0 x2 x3)
          (val_main_v30 (F := Ideal) x4) x5 := by
  funext i
  rw [val_main_v34_apply, val_main_v31_apply, val_main_v33_apply, val_main_v32_apply]
  unfold Spec.output Spec.outputAt
  have el : ∀ k : Fin 128, lidx_main_v31 i k = ix2 (⟨(i 0).val, (i 0).isLt⟩ : Fin 50000) k := fun k =>
    funext fun a => by match a with | ⟨0, _⟩ => rfl | ⟨1, _⟩ => rfl
  have er : ∀ k : Fin 128, ridx_main_v31 i k = ix2 k (⟨(i 1).val, (i 1).isLt⟩ : Fin 128) := fun k =>
    funext fun a => by match a with | ⟨0, _⟩ => rfl | ⟨1, _⟩ => rfl
  have eb : idx_main_v32 (idx_main_v33 i) = ix1 (⟨(i 1).val, (i 1).isLt⟩ : Fin 128) :=
    funext fun a => by match a with | ⟨0, _⟩ => rfl
  have ed : ∀ k : Fin 128, idx_main_v27 (ix2 (⟨(i 0).val, (i 0).isLt⟩ : Fin 50000) k) = ix2 (⟨(i 0).val, (i 0).isLt⟩ : Fin 50000) (0 : Fin 1) := fun k =>
    funext fun a => by match a with | ⟨0, _⟩ => rfl | ⟨1, _⟩ => rfl
  rw [eb, Ideal.addf_def]
  refine congrArg (fun s : EReal => s + x5 (ix1 (⟨(i 1).val, (i 1).isLt⟩ : Fin 128))) (Finset.sum_congr rfl fun k _ => ?_)
  rw [el k, er k, val_main_v29_apply, val_main_v28_apply, val_main_v27_apply, ed k]
  rfl

end Cert.ReferenceIdeal.RefValue

end
-- ==== Proof.lean ====
/-
  Two-layer message passing on a graph, kernel against reference, over the extended reals.

  Both programs compute `h = max (x · W1ᵀ + b1) 0`, gather `h` along the edges' sources and sum the messages into the
  edges' targets, divide each node's sum by its clamped in-degree, add `h` back and apply `· W2ᵀ + b2`. The kernel does
  the two dense layers in row blocks of 5000 nodes on the MXU (a block product into a zero accumulator, the operands cast to
  bf16, which is the identity on the reals) and leaves the gather and the scatter-adds to the host; the reference does
  everything on the host. Element by element both results are `Spec.output (aggregate h edges) (degree edges) h W2ᵀ b2`
  with `h = Spec.hidden x W1ᵀ b1`: a block product at an element is the host's `dot_general` at that element (the same
  sum over the contracted axis), the ten row blocks tile the 50000 rows, and the gather / scatter-add chain is the same
  function of the same operands on both sides. No algebraic law beyond that is used, so finiteness of the inputs is
  never opened. The idealization rewrote nothing, so `preserves` is trivial.
-/
import proofs.«422605_j14972255994227_3_alg».proof.Defs
import proofs.«422605_j14972255994227_3_alg».proof.Proof.Gen.Kernel
import proofs.«422605_j14972255994227_3_alg».proof.Proof.Gen.Kernel.Skeleton
import proofs.«422605_j14972255994227_3_alg».proof.Proof.Gen.Kernel.Launch
import proofs.«422605_j14972255994227_3_alg».proof.Proof.Gen.Kernel.Points
import proofs.«422605_j14972255994227_3_alg».proof.Proof.Gen.Kernel.Frame
import proofs.«422605_j14972255994227_3_alg».proof.Proof.Gen.KernelIdeal
import proofs.«422605_j14972255994227_3_alg».proof.Proof.Gen.KernelIdeal.Skeleton
import proofs.«422605_j14972255994227_3_alg».proof.Proof.Gen.KernelIdeal.Launch
import proofs.«422605_j14972255994227_3_alg».proof.Proof.Gen.KernelIdeal.Points
import proofs.«422605_j14972255994227_3_alg».proof.Proof.Gen.KernelIdeal.Frame
import proofs.«422605_j14972255994227_3_alg».proof.Proof.Gen.ReferenceIdeal
import proofs.«422605_j14972255994227_3_alg».proof.Proof.Gen.ReferenceIdeal.Run
import proofs.«422605_j14972255994227_3_alg».proof.Proof.Gen.ReferenceIdeal.Read
import proofs.«422605_j14972255994227_3_alg».proof.Proof.Gen.Pre_finite_inputs
import proofs.«422605_j14972255994227_3_alg».proof.Proof.KernelRun
import proofs.«422605_j14972255994227_3_alg».proof.Proof.KernelValue
import proofs.«422605_j14972255994227_3_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the output layer over the aggregated hidden layer of the shared arguments. -/
theorem algebraic : Cert.algebraic_KernelIdeal_ReferenceIdeal := by
  intro m ρ m' ρ' _ hagree
  refine ⟨fun c => Cert.KernelIdeal.Hand.resultOf m c, ?_, ?_⟩
  · exact (θ_run Cert.KernelIdeal.defs _ _).mono
      (fun r h c => ⟨(h c).1.trans (Cert.KernelIdeal.Hand.exit1_result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v34_eq, Cert.ReferenceIdeal.RefValue.output_eq, Cert.Bridge.val_main_v19_eq,
      Cert.ReferenceIdeal.RefValue.hidden_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
